-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x64 .f32) (main_arg6 : FVec F S32 .f32) (main_arg7 : FVec F S32x64 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  main_v33

def fn {F : FTy → Type} [FloatOps F] (main_arg0 : FVec F S100000x32 .f32) (main_arg1 : IVec S2x1600000 32) (main_arg2 : FVec F S64x32 .f32) (main_arg3 : FVec F S64 .f32) (main_arg4 : FVec F S64x32 .f32) (main_arg5 : FVec F S32x64 .f32) (main_arg6 : FVec F S32 .f32) (main_arg7 : FVec F S32x64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S1600000x64 : Shape := ⟨2, ![1600000, 64]⟩
abbrev S1x32 : Shape := ⟨2, ![1, 32]⟩

abbrev nBuf : Space → Nat
  | .hbm => 46
  | .vmem => 18
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S64x32, .f32⟩
  | .hbm, ⟨3, _⟩ => ⟨S64, .f32⟩
  | .hbm, ⟨4, _⟩ => ⟨S64x32, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S_, .f32⟩
  | .hbm, ⟨22, _⟩ => ⟨S100000x32, .f32⟩
  | .hbm, ⟨23, _⟩ => ⟨S1600000x1, .i32⟩
  | .hbm, ⟨24, _⟩ => ⟨S100000x32, .f32⟩
  | .hbm, ⟨25, _⟩ => ⟨S32x64, .f32⟩
  | .hbm, ⟨26, _⟩ => ⟨S32x64, .f32⟩
  | .hbm, ⟨27, _⟩ => ⟨S1x64, .f32⟩
  | .hbm, ⟨28, _⟩ => ⟨S100000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S64x32, .f32⟩
  | .hbm, ⟨43, _⟩ => ⟨S64x32, .f32⟩
  | .hbm, ⟨44, _⟩ => ⟨S1x32, .f32⟩
  | .hbm, ⟨45, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S32x64, .f32⟩
  | .local _ .vmem, ⟨5, _⟩ => ⟨S32x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x32, .f32⟩
  | .local _ .vmem, ⟨14, _⟩ => ⟨S64x32, .f32⟩
  | .local _ .vmem, ⟨15, _⟩ => ⟨S1x32, .f32⟩
  | .local _ .vmem, ⟨16, _⟩ => ⟨S10000x32, .f32⟩
  | .local _ .vmem, ⟨17, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  transposes_S64x32_S32x64_1_0 : S64x32.Transposes [1, 0] S32x64
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  transposes_S32x64_S64x32_1_0 : S32x64.Transposes [1, 0] S64x32
  shapeCasts_S32_S1x32 : S32.ShapeCasts S1x32
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x64_S10000x64_1_0_0_1_n_n_wf : DotDims.WF S10000x32 S32x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v13) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S1x32 : Shape := ⟨2, ![1, 32]⟩

abbrev nBuf : Space → Nat
  | .hbm => 61
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S64x32, .f32⟩
  | .hbm, ⟨3, _⟩ => ⟨S64, .f32⟩
  | .hbm, ⟨4, _⟩ => ⟨S64x32, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S_, .f32⟩
  | .hbm, ⟨22, _⟩ => ⟨S100000x32, .f32⟩
  | .hbm, ⟨23, _⟩ => ⟨S1600000x1, .i32⟩
  | .hbm, ⟨24, _⟩ => ⟨S100000x32, .f32⟩
  | .hbm, ⟨25, _⟩ => ⟨S32x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S32x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S100000x64, .f32⟩
  | .hbm, ⟨35, _⟩ => ⟨S100000x64, .f32⟩
  | .hbm, ⟨36, _⟩ => ⟨S1x1600000, .i32⟩
  | .hbm, ⟨37, _⟩ => ⟨S1600000, .i32⟩
  | .hbm, ⟨38, _⟩ => ⟨S1x1600000, .i32⟩
  | .hbm, ⟨39, _⟩ => ⟨S1600000, .i32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S64x32, .f32⟩
  | .hbm, ⟨54, _⟩ => ⟨S100000x32, .f32⟩
  | .hbm, ⟨55, _⟩ => ⟨S1x32, .f32⟩
  | .hbm, ⟨56, _⟩ => ⟨S100000x32, .f32⟩
  | .hbm, ⟨57, _⟩ => ⟨S100000x32, .f32⟩
  | .hbm, ⟨58, _⟩ => ⟨S64x32, .f32⟩
  | .hbm, ⟨59, _⟩ => ⟨S100000x32, .f32⟩
  | .hbm, ⟨60, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.HostReads.lean ====
/-
  The host operations around the two regions, read back at the exact instance.

  Before the first region the program slices the edge list into its source and destination rows, normalises the
  source indices (a negative index counts from the end), gathers the source rows of the node features and adds each
  into its destination row of a zero array: the neighbour sum `neighbourSum32 x e`. It also transposes the two weight
  matrices and lays the bias out as one row. Between the regions it does the same with the first layer's output
  (`neighbourSum64 h e`, over the same two index rows) and the second layer's weights. Nothing here opens a gather or a
  scatter: both programs apply the same ones, so they stay opaque. What is proved is which array each window of each
  region finds: the boundary contents of the generated run (`Gen.W1` … `Gen.W4`) at each window's array, as these
  functions of the launch memory `m`.
-/
import proofs.«137268_j64707977281830_1_alg».proof.Proof.Gen.KernelIdeal.Frame
import Idealize.ShloMosaic.Lib.StableHlo.Run
import Idealize.ShloMosaic.PureOps.Ideal

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

/-- Row 0 of the edge list as a flat array: each edge's source node. -/
def sourceRow (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- Row 1 of the edge list as a flat array: each edge's destination node. -/
def destRow (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- A gather index below zero counts from the end: `i + 100000`. -/
def wrapped (s : (⟨S1600000, .i32⟩ : BufTy).Contents (Elt Ideal)) : (⟨S1600000, .i32⟩ : BufTy).Contents (Elt Ideal) :=
  select (cmpi .slt s (broadcastInDim S1600000 ![] bcast_S_S1600000 (constantI S_ 32 0#32)))
    (addi s (broadcastInDim S1600000 ![] bcast_S_S1600000 (constantI S_ 32 100000#32))) s

/-- The neighbour sum over 32 features, from the source and destination rows. -/
def sum32 (x : (⟨S100000x32, .f32⟩ : BufTy).Contents (Elt Ideal)) (s d : (⟨S1600000, .i32⟩ : BufTy).Contents (Elt Ideal)) :
    (⟨S100000x32, .f32⟩ : BufTy).Contents (Elt Ideal) :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 d)
    (Host.gather gather_S100000x32_S1600000x1_S1600000x32_1_0_n_n_0_1_132 x
      (broadcastInDim S1600000x1 ![0] bcast_S1600000_S1600000x1_0 (wrapped s)))

/-- The neighbour sum over 64 features. -/
def sum64 (h : (⟨S100000x64, .f32⟩ : BufTy).Contents (Elt Ideal)) (s d : (⟨S1600000, .i32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 h
      (broadcastInDim S1600000x1 ![0] bcast_S1600000_S1600000x1_0 (wrapped s)))

/-- The first layer's neighbour sum, of the node features and the edge list. -/
def neighbourSum32 (x : (⟨S100000x32, .f32⟩ : BufTy).Contents (Elt Ideal)) (e : (⟨S2x1600000, .i32⟩ : BufTy).Contents (Elt Ideal)) :=
  sum32 x (sourceRow e) (destRow e)

/-- The second layer's neighbour sum, of the hidden features and the edge list. -/
def neighbourSum64 (h : (⟨S100000x64, .f32⟩ : BufTy).Contents (Elt Ideal)) (e : (⟨S2x1600000, .i32⟩ : BufTy).Contents (Elt Ideal)) :=
  sum64 h (sourceRow e) (destRow e)

variable (m : (ℓ : Loc nD τ sig) → Buf (Elt Ideal) ℓ) (ρ : Dev nD → PrngReg)

/-! ## What region 0 finds -/

theorem entry0_agg (c : Dev nD) : V1 m ρ c main_v13 = neighbourSum32 (m ((c : Thread nD τ).loc main_arg0)) (m ((c : Thread nD τ).loc main_arg1)) := by
  show StableHlo.after hostOps0 (W0 m ρ c) (Proc.devRef .tc main_v13) = _
  after_results <;> rfl

theorem entry0_x (c : Dev nD) : V1 m ρ c main_arg0 = m ((c : Thread nD τ).loc main_arg0) := by
  show StableHlo.after hostOps0 (W0 m ρ c) (Proc.devRef .tc main_arg0) = _
  after_results <;> rfl

theorem entry0_wl (c : Dev nD) : V1 m ρ c main_v14 = transpose S32x64 [1, 0] (m ((c : Thread nD τ).loc main_arg2)) transposes_S64x32_S32x64_1_0 := by
  show StableHlo.after hostOps0 (W0 m ρ c) (Proc.devRef .tc main_v14) = _
  after_results <;> rfl

theorem entry0_wr (c : Dev nD) : V1 m ρ c main_v15 = transpose S32x64 [1, 0] (m ((c : Thread nD τ).loc main_arg4)) transposes_S64x32_S32x64_1_0 := by
  show StableHlo.after hostOps0 (W0 m ρ c) (Proc.devRef .tc main_v15) = _
  after_results <;> rfl

theorem entry0_bias (c : Dev nD) : V1 m ρ c main_v16 = shapeCast _ (m ((c : Thread nD τ).loc main_arg3)) shapeCasts_S64_S1x64 := by
  show StableHlo.after hostOps0 (W0 m ρ c) (Proc.devRef .tc main_v16) = _
  after_results <;> rfl

/-- The two index rows, computed before region 0 and read again after it. -/
theorem entry0_src (c : Dev nD) : W1 m ρ c (Proc.devRef .tc main_v1) = sourceRow (m ((c : Thread nD τ).loc main_arg1)) := by
  show StableHlo.after hostOps0 (W0 m ρ c) (Proc.devRef .tc main_v1) = _
  after_results <;> rfl

theorem entry0_dst (c : Dev nD) : W1 m ρ c (Proc.devRef .tc main_v3) = destRow (m ((c : Thread nD τ).loc main_arg1)) := by
  show StableHlo.after hostOps0 (W0 m ρ c) (Proc.devRef .tc main_v3) = _
  after_results <;> rfl

/-! ## What region 0 leaves, and what the stretch after it still holds -/

/-- The hidden features: what region 0's write-backs leave in its output array. -/
theorem hidden_at_exit (c : Dev nD) : W2 m ρ c (Proc.devRef .tc main_v17) = (dat0 (V1 m ρ) c).arrAt 5 cfg0.N :=
  W2_arr m ρ c 5

theorem exit0_src (c : Dev nD) : W2 m ρ c (Proc.devRef .tc main_v1) = sourceRow (m ((c : Thread nD τ).loc main_arg1)) :=
  (W2_of_ne m ρ c main_v1 (by decide)).trans (entry0_src m ρ c)

theorem exit0_dst (c : Dev nD) : W2 m ρ c (Proc.devRef .tc main_v3) = destRow (m ((c : Thread nD τ).loc main_arg1)) :=
  (W2_of_ne m ρ c main_v3 (by decide)).trans (entry0_dst m ρ c)

theorem exit0_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)

theorem exit0_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)

theorem exit0_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)

/-! ## What region 1 finds -/

theorem entry1_agg (c : Dev nD) : V3 m ρ c main_v27
    = sum64 (W2 m ρ c (Proc.devRef .tc main_v17)) (W2 m ρ c (Proc.devRef .tc main_v1)) (W2 m ρ c (Proc.devRef .tc main_v3)) := by
  show StableHlo.after hostOps1 (W2 m ρ c) (Proc.devRef .tc main_v27) = _
  after_results <;> rfl

theorem entry1_h (c : Dev nD) : V3 m ρ c main_v17 = W2 m ρ c (Proc.devRef .tc main_v17) := by
  show StableHlo.after hostOps1 (W2 m ρ c) (Proc.devRef .tc main_v17) = _
  after_results <;> rfl

theorem entry1_wl (c : Dev nD) : V3 m ρ c main_v28
    = transpose S64x32 [1, 0] (W2 m ρ c (Proc.devRef .tc main_arg5)) transposes_S32x64_S64x32_1_0 := by
  show StableHlo.after hostOps1 (W2 m ρ c) (Proc.devRef .tc main_v28) = _
  after_results <;> rfl

theorem entry1_wr (c : Dev nD) : V3 m ρ c main_v29
    = transpose S64x32 [1, 0] (W2 m ρ c (Proc.devRef .tc main_arg7)) transposes_S32x64_S64x32_1_0 := by
  show StableHlo.after hostOps1 (W2 m ρ c) (Proc.devRef .tc main_v29) = _
  after_results <;> rfl

theorem entry1_bias (c : Dev nD) : V3 m ρ c main_v30
    = shapeCast _ (W2 m ρ c (Proc.devRef .tc main_arg6)) shapeCasts_S32_S1x32 := by
  show StableHlo.after hostOps1 (W2 m ρ c) (Proc.devRef .tc main_v30) = _
  after_results <;> rfl

/-- The result array: what region 1's write-backs leave in its output array. -/
theorem result_at_exit (c : Dev nD) : W4 m ρ c (Proc.devRef .tc main_v31) = (dat1 (V3 m ρ) c).arrAt 5 cfg1.N :=
  W4_arr m ρ c 5

end Cert.KernelIdeal.HostChain

end
-- ==== Proof.SageLayer.lean ====
/-
  One graph-convolution layer's dense part, entry by entry, on the extended reals.

  A layer combines, for node `p` and output feature `j`, the neighbour sum `agg` and the node's own features `x`
  through two weight matrices held transposed (`[K, J]`: input feature `k` down, output feature `j` across) and a bias:

      (∑ₖ agg(p,k) · wl(k,j)  +  ∑ₖ x(p,k) · wr(k,j))  +  b(j).

  `layerAt` is that number; `layer` the `[N, J]` array of them and `reluLayer` the array of their maxima with the
  word `0x00000000` read as a float (the rectifier). The bias comes as a `[J]` array, or as the `[1, J]` row a
  kernel's window holds (`layerRow`, `reluLayerRow`); the two agree when the row is the array laid out as one row.
  Addition on the extended reals is commutative and associative, so where the bias enters the sum does not matter:
  `add_bias_mid` is the one regrouping used against a program that adds the bias between the two products.
-/
import Idealize.ShloMosaic.PureOps.Ideal
import Idealize.ShloMosaic.Lib.ValueIdx

noncomputable section

open scoped BigOperators

namespace Cert.Sage

open Idealize.ShloMosaic Idealize.ShloMosaic.ValueIdx

variable {N K J : ℕ}

/-- Entry `(p, j)` of a layer with a `[J]` bias. -/
def layerAt (agg x : FVec Ideal ⟨2, ![N, K]⟩ .f32) (wl wr : FVec Ideal ⟨2, ![K, J]⟩ .f32)
    (b : FVec Ideal ⟨1, ![J]⟩ .f32) (p : Fin N) (j : Fin J) : Ideal .f32 :=
  ((∑ k : Fin K, agg (ix2 p k) * wl (ix2 k j)) + (∑ k : Fin K, x (ix2 p k) * wr (ix2 k j))) + b (ix1 j)

/-- The layer as an `[N, J]` array. -/
def layer (agg x : FVec Ideal ⟨2, ![N, K]⟩ .f32) (wl wr : FVec Ideal ⟨2, ![K, J]⟩ .f32)
    (b : FVec Ideal ⟨1, ![J]⟩ .f32) : FVec Ideal ⟨2, ![N, J]⟩ .f32 :=
  fun i => layerAt agg x wl wr b (i 0) (i 1)

/-- The rectified layer: each entry's maximum with the float zero word. -/
def reluLayer (agg x : FVec Ideal ⟨2, ![N, K]⟩ .f32) (wl wr : FVec Ideal ⟨2, ![K, J]⟩ .f32)
    (b : FVec Ideal ⟨1, ![J]⟩ .f32) : FVec Ideal ⟨2, ![N, J]⟩ .f32 :=
  fun i => max (layerAt agg x wl wr b (i 0) (i 1)) (Ideal.ofBits .f32 0x00000000#32)

/-- A `[1, J]` bias row read as a `[J]` array. -/
def rowBias (b2 : FVec Ideal ⟨2, ![1, J]⟩ .f32) : FVec Ideal ⟨1, ![J]⟩ .f32 :=
  fun j => b2 (ix2 (0 : Fin 1) (j 0))

/-- The layer over a `[1, J]` bias row. -/
def layerRow (agg x : FVec Ideal ⟨2, ![N, K]⟩ .f32) (wl wr : FVec Ideal ⟨2, ![K, J]⟩ .f32)
    (b2 : FVec Ideal ⟨2, ![1, J]⟩ .f32) : FVec Ideal ⟨2, ![N, J]⟩ .f32 :=
  layer agg x wl wr (rowBias b2)

/-- The rectified layer over a `[1, J]` bias row. -/
def reluLayerRow (agg x : FVec Ideal ⟨2, ![N, K]⟩ .f32) (wl wr : FVec Ideal ⟨2, ![K, J]⟩ .f32)
    (b2 : FVec Ideal ⟨2, ![1, J]⟩ .f32) : FVec Ideal ⟨2, ![N, J]⟩ .f32 :=
  reluLayer agg x wl wr (rowBias b2)

/-- Adding the bias between the two products, or after both, gives the same extended real. -/
theorem add_bias_mid (s t β : EReal) : (s + β) + t = (s + t) + β := add_right_comm s β t

end Cert.Sage

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.RegionValue.lean ====
/-
  What each of the two layer regions leaves in its output array, on the extended reals.

  Each region walks the `100000` nodes in ten blocks of `10000` rows. At block `t` it holds rows
  `t·10000 … t·10000 + 9999` of the neighbour sums and of the node features, the two whole weight matrices and the whole
  bias row, and writes rows `t·10000 …` of the result: entry `(p, j)` of the block is

      (∑ₖ agg(t·10000 + p, k) · wl(k, j)  +  ∑ₖ x(t·10000 + p, k) · wr(k, j))  +  b(0, j),

  in the first layer then maximised with the float zero word. The narrowing of the operands to a shorter format is the
  identity on the extended reals, a reshape to the same shape is the identity, each product into a zero accumulator is
  the finite sum over the contracted axis, and the bias row broadcast over the rows reads `b(0, j)` in every row. So
  block `t` of the result is rows `t·10000 …` of the layer function of the WHOLE arrays; row `r` lies in block
  `r / 10000`, so the ten blocks cover the array and the array ends as that layer function. This holds for any contents
  the region finds in its arrays.
-/
import proofs.«137268_j64707977281830_1_alg».proof.Proof.Gen.KernelIdeal.Frame
import proofs.«137268_j64707977281830_1_alg».proof.Proof.SageLayer
import proofs.«137268_j64707977281830_1_alg».proof.Proof.LibPlainProduct
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal Cert.KernelIdeal.Gen

-- the contents a region finds in the core's buffers when it is entered: any
variable (V : (c : Dev nD) → (b : Ref sig .tc) → Buf (Elt Ideal) ((c : Thread nD τ).loc b))

/-! ## Shared by the two regions -/

/-- Row `p` of block `n`, as a row of the whole `100000`-row array: `n · 10000 + p`. -/
def blockRow (n : ℕ) (hn : n < 10) (p : Fin 10000) : Fin 100000 := ⟨n * 10000 + p.val, by have := p.isLt; omega⟩

/-- The zero offsets of a whole-buffer access, as the constant function. -/
theorem zero_offsets : (![0, 0] : Fin 2 → Nat) = fun _ => 0 := funext fun a => by fin_cases a <;> rfl

/-! ## The first layer: blocks `[10000, 32]` in, `[10000, 64]` out, rectified -/

/-- Entry `(p, q)` of what the body computes from its five blocks: the rectified layer of those blocks at `(p, q)`. -/
theorem hidden_block_entry (x0 x1 : Vec Ideal S10000x32 .f32) (x2 x3 : Vec Ideal S32x64 .f32) (x4 : Vec Ideal S1x64 .f32)
    (p : Fin 10000) (q : Fin 64) :
    k0_pay1 (F := Ideal) x0 x1 x2 x3 x4 (ix2 p q) = Cert.Sage.reluLayerRow x0 x1 x2 x3 x4 (ix2 p q) := by
  unfold k0_pay1 Cert.Sage.reluLayerRow Cert.Sage.reluLayer Cert.Sage.layerAt
  simp only [shapeCast_self]
  rw [maximumf_apply, addf_apply, addf_apply, broadcast_apply]
  refine congrArg₂ max (congrArg₂ (· + ·) (congrArg₂ (· + ·) ?_ ?_) ?_) rfl
  · exact Cert.LibPlainProduct.matmul_zero_plain_apply _ _ none p q
  · exact Cert.LibPlainProduct.matmul_zero_plain_apply _ _ none p q
  · exact broadcastTo_apply x4 broadcasts_S1x64_S10000x64 (ix2 p q) (ix2 (0 : Fin 1) q)
      (fun a => by match a with | ⟨0, _⟩ => rfl | ⟨1, _⟩ => rfl)

/-- When the two row blocks are rows `r p` of whole arrays `agg` and `x`, the body's entry `(p, q)` is the rectified
    layer of the whole arrays at `(r p, q)`: a layer's row depends on that row of `agg` and `x` only. -/
theorem hidden_block_of_rows (agg x : FVec Ideal ⟨2, ![100000, 32]⟩ .f32) (wl wr : FVec Ideal ⟨2, ![32, 64]⟩ .f32)
    (b : FVec Ideal ⟨2, ![1, 64]⟩ .f32) (x0 x1 : Vec Ideal S10000x32 .f32) (r : Fin 10000 → Fin 100000)
    (h0 : ∀ p k, x0 (ix2 p k) = agg (ix2 (r p) k)) (h1 : ∀ p k, x1 (ix2 p k) = x (ix2 (r p) k))
    (p : Fin 10000) (q : Fin 64) :
    k0_pay1 (F := Ideal) x0 x1 wl wr b (ix2 p q) = Cert.Sage.reluLayerRow agg x wl wr b (ix2 (r p) q) := by
  rw [hidden_block_entry]
  unfold Cert.Sage.reluLayerRow Cert.Sage.reluLayer Cert.Sage.layerAt
  simp only [h0, h1]

/-- The block indices over the grid: the two row windows and the result window are at block `(t, 0)`, the weights and
    the bias row at block `(0, 0)`. -/
theorem hidden_block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the rectified layer of the whole arrays as the region finds them. -/
theorem hidden_flushed (c : Dev nD) (t : Fin cfg0.N) :
    (dat0 (F := Ideal) V c).flushed 5 t = ((cfg0.win 5).blk t).view.read (Elt Ideal)
      (Cert.Sage.reluLayerRow (V c main_v13) (V c main_arg0) (V c main_v14) (V c main_v15) (V c main_v16)) := by
  show (cfg0.win 5).cut (grid0.coords t) ((dat0 V c).after 5 t) = _
  rw [after0_5]
  unfold out0_5
  rw [View.canon_unit_zero zero_offsets]
  simp only [View.ld_unit_zero (S := S10000x32) zero_offsets, View.ld_unit_zero (S := S32x64) zero_offsets,
    View.ld_unit_zero (S := S1x64) zero_offsets]
  have hN : t.val < 10 := t.isLt.trans_eq N_0
  obtain ⟨a00, a01, a10, a11, a20, a21, a30, a31, a40, a41, a50, a51⟩ := hidden_block_indices t
  -- the weights' and the bias row's one block is the whole array
  have e2 : iblk0 V c 2 t = V c main_v14 := by
    funext y
    show V c main_v14 (((cfg0.win 2).blk t).view.emb y) = V c main_v14 y
    refine congrArg (V c main_v14) (funext fun a => Fin.ext ?_)
    match a with
    | ⟨0, _⟩ => show win0_2.index t (0 : Fin 2) * 32 + 1 * (y 0).val = (y 0).val; rw [a20]; omega
    | ⟨1, _⟩ => show win0_2.index t (1 : Fin 2) * 64 + 1 * (y 1).val = (y 1).val; rw [a21]; omega
  have e3 : iblk0 V c 3 t = V c main_v15 := by
    funext y
    show V c main_v15 (((cfg0.win 3).blk t).view.emb y) = V c main_v15 y
    refine congrArg (V c main_v15) (funext fun a => Fin.ext ?_)
    match a with
    | ⟨0, _⟩ => show win0_3.index t (0 : Fin 2) * 32 + 1 * (y 0).val = (y 0).val; rw [a30]; omega
    | ⟨1, _⟩ => show win0_3.index t (1 : Fin 2) * 64 + 1 * (y 1).val = (y 1).val; rw [a31]; omega
  have e4 : iblk0 V c 4 t = V c main_v16 := by
    funext y
    show V c main_v16 (((cfg0.win 4).blk t).view.emb y) = V c main_v16 y
    refine congrArg (V c main_v16) (funext fun a => Fin.ext ?_)
    match a with
    | ⟨0, _⟩ => show win0_4.index t (0 : Fin 2) * 1 + 1 * (y 0).val = (y 0).val; rw [a40]; omega
    | ⟨1, _⟩ => show win0_4.index t (1 : Fin 2) * 64 + 1 * (y 1).val = (y 1).val; rw [a41]; omega
  -- the two row blocks are rows `t · 10000 + p` of their arrays
  have h0 : ∀ (p : Fin 10000) (k : Fin 32),
      iblk0 V c 0 t (ix2 p k) = V c main_v13 (ix2 (blockRow t.val hN p) k) := by
    intro p k
    show V c main_v13 (((cfg0.win 0).blk t).view.emb (ix2 p k)) = _
    refine congrArg (V c main_v13) (funext fun a => Fin.ext ?_)
    match a with
    | ⟨0, _⟩ => show win0_0.index t (0 : Fin 2) * 10000 + 1 * p.val = t.val * 10000 + p.val; rw [a00]; omega
    | ⟨1, _⟩ => show win0_0.index t (1 : Fin 2) * 32 + 1 * k.val = k.val; rw [a01]; omega
  have h1 : ∀ (p : Fin 10000) (k : Fin 32),
      iblk0 V c 1 t (ix2 p k) = V c main_arg0 (ix2 (blockRow t.val hN p) k) := by
    intro p k
    show V c main_arg0 (((cfg0.win 1).blk t).view.emb (ix2 p k)) = _
    refine congrArg (V c main_arg0) (funext fun a => Fin.ext ?_)
    match a with
    | ⟨0, _⟩ => show win0_1.index t (0 : Fin 2) * 10000 + 1 * p.val = t.val * 10000 + p.val; rw [a10]; omega
    | ⟨1, _⟩ => show win0_1.index t (1 : Fin 2) * 32 + 1 * k.val = k.val; rw [a11]; omega
  funext j
  show k0_pay1 (iblk0 V c 0 t) (iblk0 V c 1 t) (iblk0 V c 2 t) (iblk0 V c 3 t) (iblk0 V c 4 t) j
    = Cert.Sage.reluLayerRow (V c main_v13) (V c main_arg0) (V c main_v14) (V c main_v15) (V c main_v16)
        (((cfg0.win 5).blk t).view.emb j)
  -- and entry `j` of the result block sits at row `t · 10000 + j 0` of the result array
  have hemb : ((cfg0.win 5).blk t).view.emb j = ix2 (blockRow t.val hN (j 0)) (j 1) := by
    funext a; apply Fin.ext
    match a with
    | ⟨0, _⟩ => show win0_5.index t (0 : Fin 2) * 10000 + 1 * (j 0).val = t.val * 10000 + (j 0).val; rw [a50]; omega
    | ⟨1, _⟩ => show win0_5.index t (1 : Fin 2) * 64 + 1 * (j 1).val = (j 1).val; rw [a51]; omega
  rw [hemb, e2, e3, e4]
  refine (congrArg (k0_pay1 (F := Ideal) (iblk0 V c 0 t) (iblk0 V c 1 t) (V c main_v14) (V c main_v15) (V c main_v16))
    (eq_ix2 j)).trans ?_
  exact hidden_block_of_rows (V c main_v13) (V c main_arg0) (V c main_v14) (V c main_v15) (V c main_v16)
    (iblk0 V c 0 t) (iblk0 V c 1 t) (blockRow t.val hN) h0 h1 (j 0) (j 1)

/-- An index of the `[100000, 64]` array lies in point `t`'s block iff each coordinate lies in the block's range. -/
theorem mem_hidden_block (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v17).slice (win0_5.rect t)).set ↔ _
  rw [View.set_slice_whole, Rect.mem_set_unit]
  exact Iff.rfl

/-- Row `r` lies in the block of point `r / 10000`: the ten blocks cover the array. -/
theorem hidden_blocks_cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, (show (i 0).val / 10000 < 10 by omega).trans_eq N_0.symm⟩, rfl⟩
  obtain ⟨-, -, -, -, -, -, -, -, -, -, a50, a51⟩ := hidden_block_indices t
  refine ⟨t, flush0_5 t, ?_⟩
  rw [mem_hidden_block]
  intro a
  match a with
  | ⟨0, _⟩ =>
    show win0_5.index t (0 : Fin 2) * 10000 ≤ (i 0).val ∧ (i 0).val < win0_5.index t (0 : Fin 2) * 10000 + 10000
    rw [a50]; omega
  | ⟨1, _⟩ =>
    show win0_5.index t (1 : Fin 2) * 64 ≤ (i 1).val ∧ (i 1).val < win0_5.index t (1 : Fin 2) * 64 + 64
    rw [a51]; omega

/-- THE FIRST REGION'S RESULT: its output array ends as the rectified layer of the arrays the region finds. -/
theorem region0_result (c : Dev nD) :
    (dat0 (F := Ideal) V c).arrAt 5 cfg0.N
      = Cert.Sage.reluLayerRow (V c main_v13) (V c main_arg0) (V c main_v14) (V c main_v15) (V c main_v16) :=
  (dat0 (F := Ideal) V c).arrAt_eq_of_cover 5 _ (fun t _ => hidden_flushed V c t) hidden_blocks_cover

/-! ## The second layer: blocks `[10000, 64]` in, `[10000, 32]` out, not rectified -/

/-- Entry `(p, q)` of what the body computes from its five blocks: the layer of those blocks at `(p, q)`. -/
theorem output_block_entry (x0 x1 : Vec Ideal S10000x64 .f32) (x2 x3 : Vec Ideal S64x32 .f32) (x4 : Vec Ideal S1x32 .f32)
    (p : Fin 10000) (q : Fin 32) :
    k1_pay1 (F := Ideal) x0 x1 x2 x3 x4 (ix2 p q) = Cert.Sage.layerRow x0 x1 x2 x3 x4 (ix2 p q) := by
  unfold k1_pay1 Cert.Sage.layerRow Cert.Sage.layer Cert.Sage.layerAt
  simp only [shapeCast_self]
  rw [addf_apply, addf_apply]
  refine congrArg₂ (· + ·) (congrArg₂ (· + ·) ?_ ?_) ?_
  · exact Cert.LibPlainProduct.matmul_zero_plain_apply _ _ none p q
  · exact Cert.LibPlainProduct.matmul_zero_plain_apply _ _ none p q
  · exact broadcastTo_apply x4 broadcasts_S1x32_S10000x32 (ix2 p q) (ix2 (0 : Fin 1) q)
      (fun a => by match a with | ⟨0, _⟩ => rfl | ⟨1, _⟩ => rfl)

/-- When the two row blocks are rows `r p` of whole arrays `agg` and `x`, the body's entry `(p, q)` is the layer of the
    whole arrays at `(r p, q)`. -/
theorem output_block_of_rows (agg x : FVec Ideal ⟨2, ![100000, 64]⟩ .f32) (wl wr : FVec Ideal ⟨2, ![64, 32]⟩ .f32)
    (b : FVec Ideal ⟨2, ![1, 32]⟩ .f32) (x0 x1 : Vec Ideal S10000x64 .f32) (r : Fin 10000 → Fin 100000)
    (h0 : ∀ p k, x0 (ix2 p k) = agg (ix2 (r p) k)) (h1 : ∀ p k, x1 (ix2 p k) = x (ix2 (r p) k))
    (p : Fin 10000) (q : Fin 32) :
    k1_pay1 (F := Ideal) x0 x1 wl wr b (ix2 p q) = Cert.Sage.layerRow agg x wl wr b (ix2 (r p) q) := by
  rw [output_block_entry]
  unfold Cert.Sage.layerRow Cert.Sage.layer Cert.Sage.layerAt
  simp only [h0, h1]

/-- The block indices over the grid: the two row windows and the result window are at block `(t, 0)`, the weights and
    the bias row at block `(0, 0)`. -/
theorem output_block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer of the whole arrays as the region finds them. -/
theorem output_flushed (c : Dev nD) (t : Fin cfg1.N) :
    (dat1 (F := Ideal) V c).flushed 5 t = ((cfg1.win 5).blk t).view.read (Elt Ideal)
      (Cert.Sage.layerRow (V c main_v27) (V c main_v17) (V c main_v28) (V c main_v29) (V c main_v30)) := by
  show (cfg1.win 5).cut (grid1.coords t) ((dat1 V c).after 5 t) = _
  rw [after1_5]
  unfold out1_5
  rw [View.canon_unit_zero zero_offsets]
  simp only [View.ld_unit_zero (S := S10000x64) zero_offsets, View.ld_unit_zero (S := S64x32) zero_offsets,
    View.ld_unit_zero (S := S1x32) zero_offsets]
  have hN : t.val < 10 := t.isLt.trans_eq N_1
  obtain ⟨a00, a01, a10, a11, a20, a21, a30, a31, a40, a41, a50, a51⟩ := output_block_indices t
  -- the weights' and the bias row's one block is the whole array
  have e2 : iblk1 V c 2 t = V c main_v28 := by
    funext y
    show V c main_v28 (((cfg1.win 2).blk t).view.emb y) = V c main_v28 y
    refine congrArg (V c main_v28) (funext fun a => Fin.ext ?_)
    match a with
    | ⟨0, _⟩ => show win1_2.index t (0 : Fin 2) * 64 + 1 * (y 0).val = (y 0).val; rw [a20]; omega
    | ⟨1, _⟩ => show win1_2.index t (1 : Fin 2) * 32 + 1 * (y 1).val = (y 1).val; rw [a21]; omega
  have e3 : iblk1 V c 3 t = V c main_v29 := by
    funext y
    show V c main_v29 (((cfg1.win 3).blk t).view.emb y) = V c main_v29 y
    refine congrArg (V c main_v29) (funext fun a => Fin.ext ?_)
    match a with
    | ⟨0, _⟩ => show win1_3.index t (0 : Fin 2) * 64 + 1 * (y 0).val = (y 0).val; rw [a30]; omega
    | ⟨1, _⟩ => show win1_3.index t (1 : Fin 2) * 32 + 1 * (y 1).val = (y 1).val; rw [a31]; omega
  have e4 : iblk1 V c 4 t = V c main_v30 := by
    funext y
    show V c main_v30 (((cfg1.win 4).blk t).view.emb y) = V c main_v30 y
    refine congrArg (V c main_v30) (funext fun a => Fin.ext ?_)
    match a with
    | ⟨0, _⟩ => show win1_4.index t (0 : Fin 2) * 1 + 1 * (y 0).val = (y 0).val; rw [a40]; omega
    | ⟨1, _⟩ => show win1_4.index t (1 : Fin 2) * 32 + 1 * (y 1).val = (y 1).val; rw [a41]; omega
  -- the two row blocks are rows `t · 10000 + p` of their arrays
  have h0 : ∀ (p : Fin 10000) (k : Fin 64),
      iblk1 V c 0 t (ix2 p k) = V c main_v27 (ix2 (blockRow t.val hN p) k) := by
    intro p k
    show V c main_v27 (((cfg1.win 0).blk t).view.emb (ix2 p k)) = _
    refine congrArg (V c main_v27) (funext fun a => Fin.ext ?_)
    match a with
    | ⟨0, _⟩ => show win1_0.index t (0 : Fin 2) * 10000 + 1 * p.val = t.val * 10000 + p.val; rw [a00]; omega
    | ⟨1, _⟩ => show win1_0.index t (1 : Fin 2) * 64 + 1 * k.val = k.val; rw [a01]; omega
  have h1 : ∀ (p : Fin 10000) (k : Fin 64),
      iblk1 V c 1 t (ix2 p k) = V c main_v17 (ix2 (blockRow t.val hN p) k) := by
    intro p k
    show V c main_v17 (((cfg1.win 1).blk t).view.emb (ix2 p k)) = _
    refine congrArg (V c main_v17) (funext fun a => Fin.ext ?_)
    match a with
    | ⟨0, _⟩ => show win1_1.index t (0 : Fin 2) * 10000 + 1 * p.val = t.val * 10000 + p.val; rw [a10]; omega
    | ⟨1, _⟩ => show win1_1.index t (1 : Fin 2) * 64 + 1 * k.val = k.val; rw [a11]; omega
  funext j
  show k1_pay1 (iblk1 V c 0 t) (iblk1 V c 1 t) (iblk1 V c 2 t) (iblk1 V c 3 t) (iblk1 V c 4 t) j
    = Cert.Sage.layerRow (V c main_v27) (V c main_v17) (V c main_v28) (V c main_v29) (V c main_v30)
        (((cfg1.win 5).blk t).view.emb j)
  -- and entry `j` of the result block sits at row `t · 10000 + j 0` of the result array
  have hemb : ((cfg1.win 5).blk t).view.emb j = ix2 (blockRow t.val hN (j 0)) (j 1) := by
    funext a; apply Fin.ext
    match a with
    | ⟨0, _⟩ => show win1_5.index t (0 : Fin 2) * 10000 + 1 * (j 0).val = t.val * 10000 + (j 0).val; rw [a50]; omega
    | ⟨1, _⟩ => show win1_5.index t (1 : Fin 2) * 32 + 1 * (j 1).val = (j 1).val; rw [a51]; omega
  rw [hemb, e2, e3, e4]
  refine (congrArg (k1_pay1 (F := Ideal) (iblk1 V c 0 t) (iblk1 V c 1 t) (V c main_v28) (V c main_v29) (V c main_v30))
    (eq_ix2 j)).trans ?_
  exact output_block_of_rows (V c main_v27) (V c main_v17) (V c main_v28) (V c main_v29) (V c main_v30)
    (iblk1 V c 0 t) (iblk1 V c 1 t) (blockRow t.val hN) h0 h1 (j 0) (j 1)

/-- An index of the `[100000, 32]` array lies in point `t`'s block iff each coordinate lies in the block's range. -/
theorem mem_output_block (t : Fin cfg1.N) (i : S100000x32.Idx) :
    i ∈ ((cfg1.win 5).blk t).view.set ↔ ∀ a : Fin 2, win1_5.index t a * S10000x32.size a ≤ (i a).val
      ∧ (i a).val < win1_5.index t a * S10000x32.size a + S10000x32.size a := by
  show i ∈ ((View.whole main_v31).slice (win1_5.rect t)).set ↔ _
  rw [View.set_slice_whole, Rect.mem_set_unit]
  exact Iff.rfl

/-- Row `r` lies in the block of point `r / 10000`: the ten blocks cover the array. -/
theorem output_blocks_cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ : ∃ t : Fin cfg1.N, t.val = (i 0).val / 10000 :=
    ⟨⟨(i 0).val / 10000, (show (i 0).val / 10000 < 10 by omega).trans_eq N_1.symm⟩, rfl⟩
  obtain ⟨-, -, -, -, -, -, -, -, -, -, a50, a51⟩ := output_block_indices t
  refine ⟨t, flush1_5 t, ?_⟩
  rw [mem_output_block]
  intro a
  match a with
  | ⟨0, _⟩ =>
    show win1_5.index t (0 : Fin 2) * 10000 ≤ (i 0).val ∧ (i 0).val < win1_5.index t (0 : Fin 2) * 10000 + 10000
    rw [a50]; omega
  | ⟨1, _⟩ =>
    show win1_5.index t (1 : Fin 2) * 32 ≤ (i 1).val ∧ (i 1).val < win1_5.index t (1 : Fin 2) * 32 + 32
    rw [a51]; omega

/-- THE SECOND REGION'S RESULT: its output array ends as the layer of the arrays the region finds. -/
theorem region1_result (c : Dev nD) :
    (dat1 (F := Ideal) V c).arrAt 5 cfg1.N
      = Cert.Sage.layerRow (V c main_v27) (V c main_v17) (V c main_v28) (V c main_v29) (V c main_v30) :=
  (dat1 (F := Ideal) V c).arrAt_eq_of_cover 5 _ (fun t _ => output_flushed V c t) output_blocks_cover

end Cert.KernelIdeal.RegionValue

end
-- ==== Proof.RefLayers.lean ====
/-
  The reference's two dense layers, entry by entry.

  The reference computes each graph-convolution layer with whole-array operations: the product of the neighbour
  sums with one transposed weight matrix, plus the bias laid out as a row and repeated down the rows, plus the
  product of the node features with the other transposed weight matrix; the first layer then takes the maximum
  with zero. At entry `(p, j)` this is

      ((∑ₖ agg(p,k) · wl(k,j)) + b(j)) + ∑ₖ x(p,k) · wr(k,j),

  and moving the bias to the end of the sum (addition on the extended reals is commutative and associative)
  gives the layer functions `Cert.Sage.reluLayer` and `Cert.Sage.layer`. The neighbour sums, the transposed
  weights and, in the second layer, the hidden features are operands of the layer and are never opened.
-/
import proofs.«137268_j64707977281830_1_alg».proof.Proof.Gen.ReferenceIdeal.Read
import proofs.«137268_j64707977281830_1_alg».proof.Proof.SageLayer
import Idealize.ShloMosaic.PureOps.Ideal
import Idealize.ShloMosaic.Lib.ValueIdx

noncomputable section

open scoped BigOperators

namespace Cert.ReferenceIdeal.Layers

open Cert.ReferenceIdeal Cert.ReferenceIdeal.Read
open Idealize.ShloMosaic Idealize.ShloMosaic.TcCoe Idealize.SL.Sem Idealize.ShloMosaic.ValueIdx

/-! ## Where each operation reads: the first layer (`[100000, 32]` by `[32, 64]`) -/

/-- The neighbour-sum product reads its left operand at row `p`, column `k`. -/
theorem agg_product_left_hidden (p : Fin 100000) (q : Fin 64) (k : Fin 32) :
    lidx_main_v15 (ix2 p q) k = ix2 p k :=
  funext fun a => Fin.ext (by match a with | ⟨0, _⟩ => rfl | ⟨1, _⟩ => rfl)

/-- The neighbour-sum product reads its right operand at row `k`, column `q`. -/
theorem agg_product_right_hidden (p : Fin 100000) (q : Fin 64) (k : Fin 32) :
    ridx_main_v15 (ix2 p q) k = ix2 k q :=
  funext fun a => Fin.ext (by match a with | ⟨0, _⟩ => rfl | ⟨1, _⟩ => rfl)

/-- The feature product reads its left operand at row `p`, column `k`. -/
theorem self_product_left_hidden (p : Fin 100000) (q : Fin 64) (k : Fin 32) :
    lidx_main_v20 (ix2 p q) k = ix2 p k :=
  funext fun a => Fin.ext (by match a with | ⟨0, _⟩ => rfl | ⟨1, _⟩ => rfl)

/-- The feature product reads its right operand at row `k`, column `q`. -/
theorem self_product_right_hidden (p : Fin 100000) (q : Fin 64) (k : Fin 32) :
    ridx_main_v20 (ix2 p q) k = ix2 k q :=
  funext fun a => Fin.ext (by match a with | ⟨0, _⟩ => rfl | ⟨1, _⟩ => rfl)

/-- The bias repeated down the rows is read, at `(p, q)`, at its entry `q`. -/
theorem bias_read_hidden (p : Fin 100000) (q : Fin 64) :
    idx_main_v16 (idx_main_v17 (ix2 p q)) = ix1 q :=
  funext fun a => Fin.ext (by match a with | ⟨0, _⟩ => rfl)

/-! ## Where each operation reads: the second layer (`[100000, 64]` by `[64, 32]`) -/

/-- The neighbour-sum product reads its left operand at row `p`, column `k`. -/
theorem agg_product_left_out (p : Fin 100000) (q : Fin 32) (k : Fin 64) :
    lidx_main_v38 (ix2 p q) k = ix2 p k :=
  funext fun a => Fin.ext (by match a with | ⟨0, _⟩ => rfl | ⟨1, _⟩ => rfl)

/-- The neighbour-sum product reads its right operand at row `k`, column `q`. -/
theorem agg_product_right_out (p : Fin 100000) (q : Fin 32) (k : Fin 64) :
    ridx_main_v38 (ix2 p q) k = ix2 k q :=
  funext fun a => Fin.ext (by match a with | ⟨0, _⟩ => rfl | ⟨1, _⟩ => rfl)

/-- The hidden-feature product reads its left operand at row `p`, column `k`. -/
theorem self_product_left_out (p : Fin 100000) (q : Fin 32) (k : Fin 64) :
    lidx_main_v43 (ix2 p q) k = ix2 p k :=
  funext fun a => Fin.ext (by match a with | ⟨0, _⟩ => rfl | ⟨1, _⟩ => rfl)

/-- The hidden-feature product reads its right operand at row `k`, column `q`. -/
theorem self_product_right_out (p : Fin 100000) (q : Fin 32) (k : Fin 64) :
    ridx_main_v43 (ix2 p q) k = ix2 k q :=
  funext fun a => Fin.ext (by match a with | ⟨0, _⟩ => rfl | ⟨1, _⟩ => rfl)

/-- The bias repeated down the rows is read, at `(p, q)`, at its entry `q`. -/
theorem bias_read_out (p : Fin 100000) (q : Fin 32) :
    idx_main_v39 (idx_main_v40 (ix2 p q)) = ix1 q :=
  funext fun a => Fin.ext (by match a with | ⟨0, _⟩ => rfl)

/-! ## The two layers -/

/-- The reference's hidden features are the rectified layer of the neighbour sums and the node features. -/
theorem hidden_eq (x0 : (⟨S100000x32, .f32⟩ : BufTy).Contents (Elt Ideal)) (x1 : (⟨S2x1600000, .i32⟩ : BufTy).Contents (Elt Ideal))
    (x2 : (⟨S64x32, .f32⟩ : BufTy).Contents (Elt Ideal)) (x3 : (⟨S64, .f32⟩ : BufTy).Contents (Elt Ideal)) (x4 : (⟨S64x32, .f32⟩ : BufTy).Contents (Elt Ideal)) :
    val_main_v22 (F := Ideal) x0 x1 x2 x3 x4
      = Cert.Sage.reluLayer (val_main_v13 (F := Ideal) x0 x1) x0 (val_main_v14 (F := Ideal) x2) (val_main_v19 (F := Ideal) x4) x3 := by
  funext i
  obtain ⟨p, q, rfl⟩ : ∃ (p : Fin 100000) (q : Fin 64), i = ix2 p q := ⟨i 0, i 1, eq_ix2 i⟩
  rw [val_main_v22_apply, val_main_v21_apply, val_main_v18_apply, val_main_v15_apply, val_main_v17_apply,
    val_main_v16_apply, val_main_v20_apply, val_main_call0_v0_apply, val_main_call0_cst_apply]
  simp only [agg_product_left_hidden, agg_product_right_hidden, self_product_left_hidden, self_product_right_hidden,
    bias_read_hidden, Ideal.addf_def, Ideal.maximumf_def, Ideal.ofBits_def]
  unfold Cert.Sage.reluLayer Cert.Sage.layerAt
  exact congrArg (fun t => max t (Ideal.ofBits .f32 0x00000000#32)) (Cert.Sage.add_bias_mid _ _ _)

/-- The reference's output is the layer of the hidden neighbour sums and the hidden features. -/
theorem out_eq (x0 : (⟨S100000x32, .f32⟩ : BufTy).Contents (Elt Ideal)) (x1 : (⟨S2x1600000, .i32⟩ : BufTy).Contents (Elt Ideal))
    (x2 : (⟨S64x32, .f32⟩ : BufTy).Contents (Elt Ideal)) (x3 : (⟨S64, .f32⟩ : BufTy).Contents (Elt Ideal)) (x4 : (⟨S64x32, .f32⟩ : BufTy).Contents (Elt Ideal))
    (x5 : (⟨S32x64, .f32⟩ : BufTy).Contents (Elt Ideal)) (x6 : (⟨S32, .f32⟩ : BufTy).Contents (Elt Ideal)) (x7 : (⟨S32x64, .f32⟩ : BufTy).Contents (Elt Ideal)) :
    val_main_v44 (F := Ideal) x0 x1 x2 x3 x4 x5 x6 x7
      = Cert.Sage.layer (val_main_v36 (F := Ideal) x0 x1 x2 x3 x4) (val_main_v22 (F := Ideal) x0 x1 x2 x3 x4) (val_main_v37 (F := Ideal) x5) (val_main_v42 (F := Ideal) x7) x6 := by
  funext i
  obtain ⟨p, q, rfl⟩ : ∃ (p : Fin 100000) (q : Fin 32), i = ix2 p q := ⟨i 0, i 1, eq_ix2 i⟩
  rw [val_main_v44_apply, val_main_v41_apply, val_main_v38_apply, val_main_v40_apply, val_main_v39_apply,
    val_main_v43_apply]
  simp only [agg_product_left_out, agg_product_right_out, self_product_left_out, self_product_right_out,
    bias_read_out, Ideal.addf_def]
  unfold Cert.Sage.layer Cert.Sage.layerAt
  exact Cert.Sage.add_bias_mid _ _ _

end Cert.ReferenceIdeal.Layers

end
-- ==== Proof.Bridge.lean ====
/-
  The reference's result is the kernel's function of the arguments.

  Both programs are two layers over the same neighbour sums. The reference's first layer is `reluLayer` of the
  neighbour sum of the node features, the features, the two transposed weight matrices and the bias array; the
  kernel's region holds the bias as one row, the array laid out row-major, whose entry `(0, j)` is the array's entry
  `j`. The second layer repeats this over the hidden features, and the reference slices the edge list a second time
  where the kernel's program reuses the two index rows: the same rows of the same list. The gathers and scatters are
  the same operations on both sides and stay closed.
-/
import proofs.«137268_j64707977281830_1_alg».proof.Proof.RefLayers
import proofs.«137268_j64707977281830_1_alg».proof.Proof.HostReads
import proofs.«137268_j64707977281830_1_alg».proof.Proof.SageLayer
import Idealize.ShloMosaic.Lib.Pipeline.Value
import Idealize.ShloMosaic.Lib.ValueIdx

noncomputable section

namespace Cert.Bridge

open Idealize.ShloMosaic Idealize.ShloMosaic.TcCoe Idealize.SL.Sem Idealize.ShloMosaic.ValueIdx
open Cert.KernelIdeal.HostChain

/-- A `[J]` array laid out as one row and read back along that row is the array. -/
theorem rowBias_shapeCast {J : ℕ} (b : FVec Ideal ⟨1, ![J]⟩ .f32) (h : (⟨1, ![J]⟩ : Shape).ShapeCasts ⟨2, ![1, J]⟩) :
    Cert.Sage.rowBias (shapeCast ⟨2, ![1, J]⟩ b h) = b := by
  funext j
  unfold Cert.Sage.rowBias
  refine shapeCast_apply b h _ j ?_
  rw [Shape.rowMajor_val_two, Shape.rowMajor_val_one]
  show (j 0).val = 0 * J + (j 0).val
  omega

/-- The hidden features as a function of the arguments: the rectified first layer. -/
def hidden (x0 : (⟨Cert.KernelIdeal.S100000x32, .f32⟩ : BufTy).Contents (Elt Ideal)) (x1 : (⟨Cert.KernelIdeal.S2x1600000, .i32⟩ : BufTy).Contents (Elt Ideal))
    (x2 : (⟨Cert.KernelIdeal.S64x32, .f32⟩ : BufTy).Contents (Elt Ideal)) (x3 : (⟨Cert.KernelIdeal.S64, .f32⟩ : BufTy).Contents (Elt Ideal))
    (x4 : (⟨Cert.KernelIdeal.S64x32, .f32⟩ : BufTy).Contents (Elt Ideal)) : (⟨Cert.KernelIdeal.S100000x64, .f32⟩ : BufTy).Contents (Elt Ideal) :=
  Cert.Sage.reluLayerRow (neighbourSum32 x0 x1) x0
    (transpose Cert.KernelIdeal.S32x64 [1, 0] x2 Cert.KernelIdeal.Facts₀.transposes_S64x32_S32x64_1_0)
    (transpose Cert.KernelIdeal.S32x64 [1, 0] x4 Cert.KernelIdeal.Facts₀.transposes_S64x32_S32x64_1_0)
    (shapeCast _ x3 Cert.KernelIdeal.Facts₀.shapeCasts_S64_S1x64)

/-- The result as a function of the arguments: the second layer over the hidden features. -/
def result (x0 : (⟨Cert.KernelIdeal.S100000x32, .f32⟩ : BufTy).Contents (Elt Ideal)) (x1 : (⟨Cert.KernelIdeal.S2x1600000, .i32⟩ : BufTy).Contents (Elt Ideal))
    (x2 : (⟨Cert.KernelIdeal.S64x32, .f32⟩ : BufTy).Contents (Elt Ideal)) (x3 : (⟨Cert.KernelIdeal.S64, .f32⟩ : BufTy).Contents (Elt Ideal))
    (x4 : (⟨Cert.KernelIdeal.S64x32, .f32⟩ : BufTy).Contents (Elt Ideal)) (x5 : (⟨Cert.KernelIdeal.S32x64, .f32⟩ : BufTy).Contents (Elt Ideal))
    (x6 : (⟨Cert.KernelIdeal.S32, .f32⟩ : BufTy).Contents (Elt Ideal)) (x7 : (⟨Cert.KernelIdeal.S32x64, .f32⟩ : BufTy).Contents (Elt Ideal)) :
    (⟨Cert.KernelIdeal.S100000x32, .f32⟩ : BufTy).Contents (Elt Ideal) :=
  Cert.Sage.layerRow (neighbourSum64 (hidden x0 x1 x2 x3 x4) x1) (hidden x0 x1 x2 x3 x4)
    (transpose Cert.KernelIdeal.S64x32 [1, 0] x5 Cert.KernelIdeal.Facts₀.transposes_S32x64_S64x32_1_0)
    (transpose Cert.KernelIdeal.S64x32 [1, 0] x7 Cert.KernelIdeal.Facts₀.transposes_S32x64_S64x32_1_0)
    (shapeCast _ x6 Cert.KernelIdeal.Facts₀.shapeCasts_S32_S1x32)

open Cert.ReferenceIdeal.Read in
/-- The reference's hidden features are `hidden` of the arguments. -/
theorem ref_hidden (x0 x1 x2 x3 x4) :
    val_main_v22 (F := Ideal) x0 x1 x2 x3 x4 = hidden x0 x1 x2 x3 x4 := by
  rw [Cert.ReferenceIdeal.Layers.hidden_eq]
  unfold hidden Cert.Sage.reluLayerRow
  rw [rowBias_shapeCast]
  rfl

open Cert.ReferenceIdeal.Read in
/-- The reference's result is `result` of the arguments. -/
theorem ref_result (x0 x1 x2 x3 x4 x5 x6 x7) :
    val_main_v44 (F := Ideal) x0 x1 x2 x3 x4 x5 x6 x7 = result x0 x1 x2 x3 x4 x5 x6 x7 := by
  rw [Cert.ReferenceIdeal.Layers.out_eq]
  unfold result Cert.Sage.layerRow
  rw [rowBias_shapeCast, ← ref_hidden]
  rfl

end Cert.Bridge

end
-- ==== Proof.KernelValue.lean ====
/-
  The kernel's result array as a function of the arguments.

  The run of @main ends with the result array at what the second region's write-backs leave. Each region leaves in
  its output array the layer function of the arrays it finds; the first region finds the neighbour sum of the node
  features, the features themselves, the transposed weights and the bias row, all computed by the host operations
  before it from the launch memory; the second finds the neighbour sum of the hidden features (the first region's
  output, which no operation in between overwrites), the hidden features, and the second layer's transposed weights
  and bias row. Reading these back one boundary at a time gives `Cert.Bridge.result` of the eight arguments.
-/
import proofs.«137268_j64707977281830_1_alg».proof.Proof.KernelRun
import proofs.«137268_j64707977281830_1_alg».proof.Proof.HostReads
import proofs.«137268_j64707977281830_1_alg».proof.Proof.RegionValue
import proofs.«137268_j64707977281830_1_alg».proof.Proof.Bridge

noncomputable section

namespace Cert.KernelIdeal.Whole

open Cert.KernelIdeal Cert.KernelIdeal.Gen Cert.KernelIdeal.HostChain
open Idealize.ShloMosaic Idealize.ShloMosaic.TcCoe Idealize.SL.Sem

variable (m : (ℓ : Loc nD τ sig) → Buf (Elt Ideal) ℓ) (ρ : Dev nD → PrngReg)

/-- The hidden features of the arguments on core `c`. -/
abbrev hiddenOf (c : Dev nD) : (⟨S100000x64, .f32⟩ : BufTy).Contents (Elt Ideal) :=
  Cert.Bridge.hidden (m ((c : Thread nD τ).loc main_arg0)) (m ((c : Thread nD τ).loc main_arg1)) (m ((c : Thread nD τ).loc main_arg2))
    (m ((c : Thread nD τ).loc main_arg3)) (m ((c : Thread nD τ).loc main_arg4))

/-- The result of the arguments on core `c`. -/
abbrev resultOf (c : Dev nD) : (⟨S100000x32, .f32⟩ : BufTy).Contents (Elt Ideal) :=
  Cert.Bridge.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- After the first region its output array holds the hidden features. -/
theorem hidden_after_region0 (c : Dev nD) : W2 m ρ c (Proc.devRef .tc main_v17) = hiddenOf m c := by
  rw [hidden_at_exit, Cert.KernelIdeal.RegionValue.region0_result (V1 m ρ) c, entry0_agg, entry0_x, entry0_wl, entry0_wr, entry0_bias]
  rfl

/-- After the second region the result array holds the result. -/
theorem result_after_region1 (c : Dev nD) : W4 m ρ c (Proc.devRef .tc main_v31) = resultOf m c := by
  rw [result_at_exit, Cert.KernelIdeal.RegionValue.region1_result (V3 m ρ) c, entry1_agg, entry1_h, entry1_wl, entry1_wr, entry1_bias,
    hidden_after_region0, exit0_src, exit0_dst, exit0_arg5, exit0_arg6, exit0_arg7]
  rfl

/-- The run, read: the result array at `resultOf`, the arguments unchanged. -/
theorem run : θ_run defs (onTc (τ := τ) (main (F := Ideal))) ⟨m, fun _ => 0, ρ⟩ (fun r => ∀ c : Dev nD,
      r.2.mem ((c.tc : Thread nD τ).loc main_v31) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_after_region1 m ρ c), (h c).2⟩)
    (Cert.KernelIdeal.Launched.run m ρ)

end Cert.KernelIdeal.Whole

end
-- ==== Proof.lean ====
/-
  Two graph-convolution layers (neighbour sum, two dense products, a bias; a rectifier after the first), the dense
  part of each layer computed by a blocked kernel over row blocks of 10000 nodes, against the whole-array reference.

  On the extended reals each layer's entry `(p, j)` is
      (∑ₖ agg(p,k) · wl(k,j) + ∑ₖ x(p,k) · wr(k,j)) + b(j)
  in the kernel and
      (∑ₖ agg(p,k) · wl(k,j) + b(j)) + ∑ₖ x(p,k) · wr(k,j)
  in the reference: the same number, addition being commutative and associative there (no finiteness is used). The
  kernel's narrowing of its operands is the identity at the exact instance, a row block's entry depends only on its own
  row of `agg` and `x`, and the ten blocks tile the hundred thousand rows. The neighbour sums are the same gather and
  scatter-add on both sides, over the same two rows of the edge list. So both programs end with
  `Cert.Bridge.result` of the eight arguments.

  The three frames are the generated ones (the reference's is its generated run with the result dropped); the
  idealization rewrote nothing, so `preserves` is trivial.
-/
import proofs.«137268_j64707977281830_1_alg».proof.Defs
import proofs.«137268_j64707977281830_1_alg».proof.Proof.Gen.Kernel
import proofs.«137268_j64707977281830_1_alg».proof.Proof.Gen.Kernel.Frame
import proofs.«137268_j64707977281830_1_alg».proof.Proof.Gen.KernelIdeal
import proofs.«137268_j64707977281830_1_alg».proof.Proof.Gen.KernelIdeal.Frame
import proofs.«137268_j64707977281830_1_alg».proof.Proof.Gen.ReferenceIdeal
import proofs.«137268_j64707977281830_1_alg».proof.Proof.Gen.ReferenceIdeal.Run
import proofs.«137268_j64707977281830_1_alg».proof.Proof.Gen.ReferenceIdeal.Read
import proofs.«137268_j64707977281830_1_alg».proof.Proof.Gen.Pre_finite_inputs
import proofs.«137268_j64707977281830_1_alg».proof.Proof.KernelValue
import proofs.«137268_j64707977281830_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- From memories that agree on the arguments both programs end with `Cert.Bridge.result` of them: the kernel by its
    run read back region by region, the reference by its run read operation by operation. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.resultOf m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v44_eq, Cert.Bridge.ref_result, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
